-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S256x512 : Shape := ⟨2, ![256, 512]⟩
abbrev S512x64 : Shape := ⟨2, ![512, 64]⟩
abbrev S512 : Shape := ⟨1, ![512]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x64 .f32) (main_arg1 : FVec F S256x512 .f32) (main_arg2 : FVec F S512x64 .f32) (main_arg3 : FVec F S512 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4096x64 : Shape := ⟨2, ![4096, 64]⟩
abbrev S256x512 : Shape := ⟨2, ![256, 512]⟩
abbrev S512x64 : Shape := ⟨2, ![512, 64]⟩
abbrev S512 : Shape := ⟨1, ![512]⟩
abbrev S64x512 : Shape := ⟨2, ![64, 512]⟩
abbrev S512x256 : Shape := ⟨2, ![512, 256]⟩
abbrev S_ : Shape := ⟨0, ![]⟩
abbrev S1x512 : Shape := ⟨2, ![1, 512]⟩
abbrev S4096x256 : Shape := ⟨2, ![4096, 256]⟩
abbrev S512x1 : Shape := ⟨2, ![512, 1]⟩
abbrev S512x512 : Shape := ⟨2, ![512, 512]⟩

abbrev nBuf : Space → Nat
  | .hbm => 17
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S256x512, .f32⟩
  | .hbm, ⟨2, _⟩ => ⟨S512x64, .f32⟩
  | .hbm, ⟨3, _⟩ => ⟨S512, .f32⟩
  | .hbm, ⟨4, _⟩ => ⟨S64x512, .f32⟩
  | .hbm, ⟨5, _⟩ => ⟨S512x256, .f32⟩
  | .hbm, ⟨6, _⟩ => ⟨S512x256, .bf16⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S4096x256, .f32⟩
  | .local _ .vmem, ⟨0, _⟩ => ⟨S512x64, .f32⟩
  | .local _ .vmem, ⟨1, _⟩ => ⟨S512x64, .f32⟩
  | .local _ .vmem, ⟨2, _⟩ => ⟨S64x512, .f32⟩
  | .local _ .vmem, ⟨3, _⟩ => ⟨S512x256, .bf16⟩
  | .local _ .vmem, ⟨4, _⟩ => ⟨S1x512, .f32⟩
  | .local _ .vmem, ⟨5, _⟩ => ⟨S1x512, .f32⟩
  | .local _ .vmem, ⟨6, _⟩ => ⟨S512x256, .f32⟩
  | .local _ .vmem, ⟨7, _⟩ => ⟨S512x256, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S512x64_S64x512_1_0 : S512x64.Transposes [1, 0] S64x512
  transposes_S256x512_S512x256_1_0 : S256x512.Transposes [1, 0] S512x256
  bitsLt_bf16_f32 : FTy.bits .bf16 < FTy.bits .f32
  reducesTo_S512x64_S512_d1 : S512x64.ReducesTo [1] S512
  h_S_ : 0 < S_.numel
  bcast_S512_S1x512_1 : S512.BroadcastsInDim S1x512 (![1] : Fin 1 → Fin S1x512.rank)
  bcast_S_S512 : S_.BroadcastsInDim S512 (![] : Fin 0 → Fin S512.rank)
  inb_S512x64_S512x64_0_0 : ∀ a, (![0, 0] : Fin 2 → Nat) a + S512x64.size a ≤ S512x64.size a
  h_S512x64 : 0 < S512x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x64_S512 : S512x64.Reduces [1] S512
  shapeCasts_S512_S512x1 : S512.ShapeCasts S512x1
  broadcasts_S512x1_S512x512 : S512x1.Broadcasts S512x512
  broadcasts_S1x512_S512x512 : S1x512.Broadcasts S512x512
  reduces_S512x512_S512 : S512x512.Reduces [1] S512
  broadcasts_S512x1_S512x256 : S512x1.Broadcasts S512x256
  dot_S512x64_S64x512_S512x512_1_0_0_1_n_n_wf : DotDims.WF S512x64 S64x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .f32 = 32 ∨ (Rect.block (s := S4096x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x256.size a
  hwx0_5 : ∀ i : grid0.Coords, EltTy.bits .f32 = 32 ∨ (Rect.block (s := S4096x256) S512x256.size (cc0_transform_5 i) (hinb0_5 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64 : Shape := ⟨2, ![4096, 64]⟩
abbrev S256x512 : Shape := ⟨2, ![256, 512]⟩
abbrev S512x64 : Shape := ⟨2, ![512, 64]⟩
abbrev S512 : Shape := ⟨1, ![512]⟩
abbrev S4096x1x64 : Shape := ⟨3, ![4096, 1, 64]⟩
abbrev S1x512x64 : Shape := ⟨3, ![1, 512, 64]⟩
abbrev S4096x512x64 : Shape := ⟨3, ![4096, 512, 64]⟩
abbrev S_ : Shape := ⟨0, ![]⟩
abbrev S4096x512 : Shape := ⟨2, ![4096, 512]⟩
abbrev S1x512 : Shape := ⟨2, ![1, 512]⟩
abbrev S4096 : Shape := ⟨1, ![4096]⟩
abbrev S4096x1 : Shape := ⟨2, ![4096, 1]⟩
abbrev S4096x256 : Shape := ⟨2, ![4096, 256]⟩

abbrev nBuf : Space → Nat
  | .hbm => 29
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S256x512, .f32⟩
  | .hbm, ⟨2, _⟩ => ⟨S512x64, .f32⟩
  | .hbm, ⟨3, _⟩ => ⟨S512, .f32⟩
  | .hbm, ⟨4, _⟩ => ⟨S4096x1x64, .f32⟩
  | .hbm, ⟨5, _⟩ => ⟨S1x512x64, .f32⟩
  | .hbm, ⟨6, _⟩ => ⟨S4096x512x64, .f32⟩
  | .hbm, ⟨7, _⟩ => ⟨S4096x512x64, .f32⟩
  | .hbm, ⟨8, _⟩ => ⟨S4096x512x64, .f32⟩
  | .hbm, ⟨9, _⟩ => ⟨S4096x512x64, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S4096x256, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S4096x64_S4096x1x64_0_2 : S4096x64.BroadcastsInDim S4096x1x64 (![0, 2] : Fin 2 → Fin S4096x1x64.rank)
  bcast_S512x64_S1x512x64_1_2 : S512x64.BroadcastsInDim S1x512x64 (![1, 2] : Fin 2 → Fin S1x512x64.rank)
  bcast_S4096x1x64_S4096x512x64_0_1_2 : S4096x1x64.BroadcastsInDim S4096x512x64 (![0, 1, 2] : Fin 3 → Fin S4096x512x64.rank)
  bcast_S1x512x64_S4096x512x64_0_1_2 : S1x512x64.BroadcastsInDim S4096x512x64 (![0, 1, 2] : Fin 3 → Fin S4096x512x64.rank)
  reducesTo_S4096x512x64_S4096x512_d2 : S4096x512x64.ReducesTo [2] S4096x512
  h_S_ : 0 < S_.numel
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  dot_S4096x512_S256x512_S4096x256_1_1_0_0_n_n_wf : DotDims.WF S4096x512 S256x512 S4096x256 [1] [1] [0] [0] [] []

variable [Facts₀]

def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf

class Facts : Prop extends Facts₀ where

variable [Facts]
-- ==== Proof.RbfAlgebra.lean ====
/-
  The algebra that joins the two programs, on the extended reals, over abstract finite index types.

  For a row `x` of the input, a centre `c` and a log-shape `l` (all real), one program weighs the pair by
  `exp (0 - exp (2·l) · max (|x|² + |c|² - 2·⟨x, c⟩) 0)` and the other by
  `exp (-((exp l · √|x - c|²) · (exp l · √|x - c|²)))`. Over the reals
  `|x|² + |c|² - 2·⟨x, c⟩ = |x - c|² ≥ 0`, so the clamp at zero is the identity, `√d · √d = d` and
  `exp l · exp l = exp (2·l)`: both are `exp (-(exp (2·l) · |x - c|²))` (`weight`).
  Then one program divides the weighted sum `∑ₖ gₖ·wₖ` by the normaliser `ε + ∑ₖ gₖ` once, the other
  divides every weight first and sums afterwards; the normaliser is a positive real, so the quotient is a
  product with its reciprocal and moves through the finite sum (`entry_eq`).
-/
import Idealize.ShloMosaic.PureOps.Ideal
import Idealize.ShloMosaic.PureOps.Ideal.Laws

noncomputable section

namespace Cert.Rbf

open Idealize.ShloMosaic

/-- A finite sum of real numbers, read in the extended reals, is the sum of the readings. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable {ι κ : Type*} [Fintype ι] [Fintype κ]

/-- The squared distance, expanded: `|x|² + |c|² - 2·⟨x, c⟩ = |x - c|²`. -/
theorem sq_dist_expand (x c : ι → ℝ) :
    (∑ f, x f * x f) + (∑ f, c f * c f) - 2 * ∑ f, x f * c f = ∑ f, (x f - c f) * (x f - c f) := by
  rw [Finset.mul_sum, ← Finset.sum_add_distrib, ← Finset.sum_sub_distrib]
  exact Finset.sum_congr rfl fun f _ => by ring

/-- The Gaussian weight of a row against a centre: `exp (-(exp (2·l) · |x - c|²))`. -/
def weight (x c : ι → ℝ) (l : ℝ) : ℝ := Real.exp (-(Real.exp (2 * l) * ∑ f, (x f - c f) * (x f - c f)))

theorem weight_pos (x c : ι → ℝ) (l : ℝ) : 0 < weight x c l := Real.exp_pos _

/-- The weight as the first program computes it: the distance expanded and clamped at zero, the shape squared
    by doubling the exponent, the sign by subtracting from zero. -/
theorem expanded_weight (two : EReal) (h2 : two = ((2 : ℝ) : EReal)) (x c : ι → ℝ) (l : ℝ) :
    Ideal.exp (0 - Ideal.exp (two * (l : EReal))
        * max ((∑ f, (x f : EReal) * (x f : EReal)) + (0 + ∑ f, (c f : EReal) * (c f : EReal))
                - two * ∑ f, (x f : EReal) * (c f : EReal)) 0)
      = ((weight x c l : ℝ) : EReal) := by
  subst h2
  have hd : (0 : ℝ) ≤ ∑ f, (x f - c f) * (x f - c f) := Finset.sum_nonneg fun f _ => mul_self_nonneg _
  simp only [← EReal.coe_mul, coe_sum, zero_add, ← EReal.coe_add, ← EReal.coe_sub]
  rw [sq_dist_expand, max_eq_left (by exact_mod_cast hd), Ideal.exp_coe, ← EReal.coe_mul, zero_sub,
    ← EReal.coe_neg, Ideal.exp_coe]
  rfl

/-- The weight as the second program computes it: the root of the squared distance, scaled by the shape, squared
    again and negated. -/
theorem rooted_weight (x c : ι → ℝ) (l : ℝ) :
    Ideal.exp (-((Ideal.exp (l : EReal) * Ideal.sqrt (0 + ∑ f, ((x f : EReal) - (c f : EReal)) * ((x f : EReal) - (c f : EReal))))
        * (Ideal.exp (l : EReal) * Ideal.sqrt (0 + ∑ f, ((x f : EReal) - (c f : EReal)) * ((x f : EReal) - (c f : EReal))))))
      = ((weight x c l : ℝ) : EReal) := by
  have hd : (0 : ℝ) ≤ ∑ f, (x f - c f) * (x f - c f) := Finset.sum_nonneg fun f _ => mul_self_nonneg _
  have key : Real.exp l * Real.sqrt (∑ f, (x f - c f) * (x f - c f)) * (Real.exp l * Real.sqrt (∑ f, (x f - c f) * (x f - c f)))
      = Real.exp (2 * l) * ∑ f, (x f - c f) * (x f - c f) := by
    rw [two_mul, Real.exp_add, mul_mul_mul_comm, Real.mul_self_sqrt hd]
  simp only [← EReal.coe_sub, ← EReal.coe_mul, coe_sum, zero_add]
  rw [Ideal.sqrt_coe, if_neg (not_lt.mpr hd), Ideal.exp_coe, ← EReal.coe_mul, ← EReal.coe_mul, ← EReal.coe_neg,
    Ideal.exp_coe, key]
  rfl

/-- Normalising after the weighted sum is normalising every weight before it: the normaliser `ε + ∑ₖ gₖ` is a
    positive real (`ε > 0`, every `gₖ ≥ 0`), so dividing by it is multiplying by its reciprocal, which moves
    through the finite sum. -/
theorem entry_eq (eps : EReal) (e0 : ℝ) (heps : eps = (e0 : EReal)) (he0 : 0 < e0) (g w : κ → ℝ) (hg : ∀ k, 0 ≤ g k) :
    Ideal.div (∑ k, (g k : EReal) * (w k : EReal)) (eps + ∑ k, (g k : EReal))
      = ∑ k, Ideal.div (g k : EReal) (eps + (0 + ∑ k, (g k : EReal))) * (w k : EReal) := by
  subst heps
  have hS : (0 : ℝ) ≤ ∑ k, g k := Finset.sum_nonneg fun k _ => hg k
  have hne : e0 + ∑ k, g k ≠ 0 := by linarith
  simp only [zero_add, coe_sum, ← EReal.coe_mul, ← EReal.coe_add]
  simp only [Ideal.div_coe hne, ← EReal.coe_mul, coe_sum]
  rw [Finset.sum_mul]
  exact congrArg _ (Finset.sum_congr rfl fun k _ => by ring)

end Cert.Rbf

end
-- ==== Proof.RbfSpec.lean ====
/-
  What the two programs compute, as whole-array functions of the four argument arrays, index by index, on the
  extended reals — and that the two functions agree when every argument entry is a real number.

  Arguments: `X` [4096, 64] the input rows, `W` [256, 512] the output weights, `C` [512, 64] the centres,
  `L` [512] the log-shapes. For row `b` and centre `k` both programs form a Gaussian weight (`kerWeight`,
  `refWeight`; RbfAlgebra.lean shows each is `exp (-(exp (2·Lₖ) · |X_b - C_k|²))` on real entries), and entry
  `(b, o)` of the result is `∑ₖ weight_{b,k} · W_{o,k} / (ε + ∑ₖ weight_{b,k})`, normalised after the sum in one
  program (`kerOut`) and before it in the other (`refOut`).
-/
import Idealize.ShloMosaic.PureOps.Ideal
import Idealize.ShloMosaic.PureOps.Ideal.Laws
import Idealize.ShloMosaic.Lib.ValueIdx
import proofs.«431249_j60335700574541_3_alg».proof.Proof.RbfAlgebra

noncomputable section

namespace Cert.Rbf

open Idealize.ShloMosaic Idealize.ShloMosaic.ValueIdx

/-- The literal `2.0` denotes the real number two. -/
theorem two_eq : Ideal.ofBits .f32 0x40000000#32 = ((2 : ℝ) : EReal) := by
  simp [Ideal.ofBits, Ideal.ieee, -EReal.coe_mul] <;> norm_num

/-- The literal the two programs share as `ε` (the f32 nearest to 1e-9) denotes a positive real number. -/
theorem eps_pos : ∃ e0 : ℝ, 0 < e0 ∧ Ideal.ofBits .f32 0x3089705F#32 = (e0 : EReal) := by
  refine ⟨9007199 * (2 : ℝ) ^ (-53 : ℤ), by positivity, ?_⟩
  simp [Ideal.ofBits, Ideal.ieee, -EReal.coe_mul] <;> norm_num

abbrev XIdx := (⟨2, ![4096, 64]⟩ : Shape).Idx
abbrev WIdx := (⟨2, ![256, 512]⟩ : Shape).Idx
abbrev CIdx := (⟨2, ![512, 64]⟩ : Shape).Idx
abbrev LIdx := (⟨1, ![512]⟩ : Shape).Idx
abbrev OIdx := (⟨2, ![4096, 256]⟩ : Shape).Idx

/-- Row `b` against centre `k`, the distance expanded as `|x|² + |c|² - 2·⟨x, c⟩` and clamped at zero, the
    shape `exp (2·Lₖ)`. -/
def kerWeight (two : EReal) (X : XIdx → EReal) (C : CIdx → EReal) (L : LIdx → EReal) (b : Fin 4096) (k : Fin 512) : EReal :=
  Ideal.exp (0 - Ideal.exp (two * L (ix1 k))
    * max ((∑ f : Fin 64, X (ix2 b f) * X (ix2 b f)) + (0 + ∑ f : Fin 64, C (ix2 k f) * C (ix2 k f))
            - two * ∑ f : Fin 64, X (ix2 b f) * C (ix2 k f)) 0)

/-- Entry `(b, o)`: the weighted sum over the centres, divided once by `ε` plus the sum of the weights. -/
def kerOut (two eps : EReal) (X : XIdx → EReal) (W : WIdx → EReal) (C : CIdx → EReal) (L : LIdx → EReal) : OIdx → EReal :=
  fun j => Ideal.div (∑ k : Fin 512, kerWeight two X C L (j 0) k * W (ix2 (j 1) k))
    (eps + ∑ k : Fin 512, kerWeight two X C L (j 0) k)

/-- Row `b` against centre `k`, through the root of the squared distance scaled by `exp Lₖ` and squared again. -/
def refWeight (X : XIdx → EReal) (C : CIdx → EReal) (L : LIdx → EReal) (b : Fin 4096) (k : Fin 512) : EReal :=
  Ideal.exp (-((Ideal.exp (L (ix1 k)) * Ideal.sqrt (0 + ∑ f : Fin 64, (X (ix2 b f) - C (ix2 k f)) * (X (ix2 b f) - C (ix2 k f))))
    * (Ideal.exp (L (ix1 k)) * Ideal.sqrt (0 + ∑ f : Fin 64, (X (ix2 b f) - C (ix2 k f)) * (X (ix2 b f) - C (ix2 k f))))))

/-- Entry `(b, o)`: every weight divided by `ε` plus the sum of the weights, then the weighted sum. -/
def refOut (eps : EReal) (X : XIdx → EReal) (W : WIdx → EReal) (C : CIdx → EReal) (L : LIdx → EReal) : OIdx → EReal :=
  fun j => ∑ k : Fin 512, Ideal.div (refWeight X C L (j 0) k) (eps + (0 + ∑ k' : Fin 512, refWeight X C L (j 0) k')) * W (ix2 (j 1) k)

/-- On arguments whose every entry is a real number the two functions are one. -/
theorem kerOut_eq_refOut (X : XIdx → EReal) (W : WIdx → EReal) (C : CIdx → EReal) (L : LIdx → EReal)
    (hX : ∀ i, ∃ r : ℝ, X i = (r : EReal)) (hW : ∀ i, ∃ r : ℝ, W i = (r : EReal))
    (hC : ∀ i, ∃ r : ℝ, C i = (r : EReal)) (hL : ∀ i, ∃ r : ℝ, L i = (r : EReal)) :
    kerOut (Ideal.ofBits .f32 0x40000000#32) (Ideal.ofBits .f32 0x3089705F#32) X W C L
      = refOut (Ideal.ofBits .f32 0x3089705F#32) X W C L := by
  choose x hx using hX
  choose w hw using hW
  choose c hc using hC
  choose l hl using hL
  obtain ⟨e0, he0, heps⟩ := eps_pos
  funext j
  have hk : ∀ k, kerWeight (Ideal.ofBits .f32 0x40000000#32) X C L (j 0) k
      = ((weight (fun f : Fin 64 => x (ix2 (j 0) f)) (fun f : Fin 64 => c (ix2 k f)) (l (ix1 k)) : ℝ) : EReal) := by
    intro k
    unfold kerWeight
    simp only [hx, hc, hl]
    exact expanded_weight _ two_eq _ _ _
  have hr : ∀ k, refWeight X C L (j 0) k
      = ((weight (fun f : Fin 64 => x (ix2 (j 0) f)) (fun f : Fin 64 => c (ix2 k f)) (l (ix1 k)) : ℝ) : EReal) := by
    intro k
    unfold refWeight
    simp only [hx, hc, hl]
    exact rooted_weight _ _ _
  unfold kerOut refOut
  simp only [hk, hr, hw]
  exact entry_eq (κ := Fin 512) _ e0 heps he0
    (fun k => weight (fun f : Fin 64 => x (ix2 (j 0) f)) (fun f : Fin 64 => c (ix2 k f)) (l (ix1 k)))
    (fun k => w (ix2 (j 1) k)) (fun k => (weight_pos _ _ _).le)

end Cert.Rbf

end
-- ==== Proof.FiniteEntries.lean ====
/-
  From the precondition to real entries: `finite_inputs` is the conjunction, over the four arguments, of "every entry's
  absolute value is below `+∞`"; on the extended reals an entry `a` with `max a (-a) < ⊤` is neither `⊤` nor `⊥`, so it
  is a real number.
-/
import proofs.«431249_j60335700574541_3_alg».proof.Pre_finite_inputs
import proofs.«431249_j60335700574541_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- The pattern of `+∞` denotes `⊤`. -/
theorem ofBits_inf : Ideal.ofBits .f32 0x7F800000#32 = ⊤ := by
  simp [Ideal.ofBits, Ideal.ieee]

/-- An extended real whose absolute value is below `⊤` is a real number. -/
theorem real_of_abs_lt_top (a : EReal) (h : max a (-a) < ⊤) : ∃ r : ℝ, a = (r : EReal) := by
  induction a using EReal.rec with
  | bot => simp at h
  | top => simp at h
  | coe r => exact ⟨r, rfl⟩

/-- One argument's conjunct, at an entry: the comparison of its absolute value against the `+∞` splat answers one, so
    the entry is real. -/
theorem real_of_cmp {s : Shape} (A : FVec Ideal s .f32) (hb : (⟨0, ![]⟩ : Shape).BroadcastsInDim s (![] : Fin 0 → Fin s.rank)) (i : s.Idx)
    (h : cmpf .olt (Host.absf A) (broadcastInDim s ![] hb (constant (F := Ideal) ⟨0, ![]⟩ .f32 0x7F800000#32)) i = 1#1) :
    ∃ r : ℝ, A i = (r : EReal) := by
  apply real_of_abs_lt_top
  have h' : Ideal.cmp .olt (max (A i) (-(A i))) (Ideal.ofBits .f32 0x7F800000#32) = 1#1 := h
  rw [ofBits_inf] at h'
  simp only [Ideal.cmp] at h'
  by_contra hn
  simp [hn] at h'

/-- Under `finite_inputs` every entry of every argument is a real number. -/
theorem real_of_pre (A0 : FVec Ideal S4096x64 .f32) (A1 : FVec Ideal S256x512 .f32) (A2 : FVec Ideal S512x64 .f32) (A3 : FVec Ideal S512 .f32)
    (h : fn (F := Ideal) A0 A1 A2 A3 = fun _ => 1#1) :
    (∀ i, ∃ r : ℝ, A0 i = (r : EReal)) ∧ (∀ i, ∃ r : ℝ, A1 i = (r : EReal)) ∧ (∀ i, ∃ r : ℝ, A2 i = (r : EReal))
      ∧ (∀ i, ∃ r : ℝ, A3 i = (r : EReal)) := by
  have h0 := congrFun h ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  refine ⟨fun i => ?_, fun i => ?_, fun i => ?_, fun i => ?_⟩
  · exact real_of_cmp A0 bcast_S_S4096x64 i (Host.reduce_andi_all _ _ _ _ _ h0' i)
  · exact real_of_cmp A1 bcast_S_S256x512 i (Host.reduce_andi_all _ _ _ _ _ h1 i)
  · exact real_of_cmp A2 bcast_S_S512x64 i (Host.reduce_andi_all _ _ _ _ _ h2 i)
  · exact real_of_cmp A3 bcast_S_S512 i (Host.reduce_andi_all _ _ _ _ _ h3 i)

end Cert.Pre_finite_inputs.Finite

end
-- ==== Proof.LibColumn.lean ====
/-
  Column forms of the layout operations, read at an index: a vector `[a]` cast to the column `[a, 1]`, and a
  column `[a, 1]` broadcast over `b` lanes to `[a, b]` — what a per-row reduction kept with its unit axis
  (`keepdims`) goes through before it meets the rows it was reduced from.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBody.lean ====
/-
  The kernel body's one stored value, read at an index.

  Over a block `x0` of 512 input rows, the centres transposed `x1` [64, 512], the weights transposed `x3` [512, 256],
  the centres' squared norms `x5` [1, 512] and the squared shapes `x7` [1, 512], the body forms for row `p` and centre `k`
  the weight `exp (0 - x7ₖ · max (|x0_p|² + x5ₖ - 2·∑_f x0_{p,f}·x1_{f,k}) 0)` (`bodyWeight`), and stores at `(p, q)`
  `(∑ₖ weight_{p,k} · x3_{k,q}) / (ε + ∑ₖ weight_{p,k})` (`pay_apply`). The two matrix products are sums over the one
  contracted axis; the row sums come back through a column `[512, 1]` broadcast over the lanes.
-/
import proofs.«431249_j60335700574541_3_alg».proof.Proof.Gen.KernelIdeal.Skeleton
import proofs.«431249_j60335700574541_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.LibColumn

/-! ## The reductions over one axis, as sums -/

/-- A lane sum of a [512, 64] block at row `p` is the sum of the row's 64 entries. -/
theorem laneSum64_apply (v : FVec Ideal S512x64 .f32) (p : Fin 512) :
    multiReduction .add [1] S512 v 0x00000000#32 reduces_S512x64_S512 (.inl rfl) rfl (ix1 p) = ∑ f : Fin 64, v (ix2 p f) :=
  (Ideal.multiReduction_add_single v 0x00000000#32 reduces_S512x64_S512 (.inl rfl) rfl (ix1 p)).trans
    (Finset.sum_congr rfl fun f _ => congrArg v (funext fun a => Fin.ext (by
      match a with
      | ⟨0, _⟩ => rfl
      | ⟨1, _⟩ => rfl)))

/-- A lane sum of a [512, 512] block at row `p` is the sum of the row's 512 entries. -/
theorem laneSum512_apply (v : FVec Ideal S512x512 .f32) (p : Fin 512) :
    multiReduction .add [1] S512 v 0x00000000#32 reduces_S512x512_S512 (.inl rfl) rfl (ix1 p) = ∑ k : Fin 512, v (ix2 p k) :=
  (Ideal.multiReduction_add_single v 0x00000000#32 reduces_S512x512_S512 (.inl rfl) rfl (ix1 p)).trans
    (Finset.sum_congr rfl fun k _ => congrArg v (funext fun a => Fin.ext (by
      match a with
      | ⟨0, _⟩ => rfl
      | ⟨1, _⟩ => rfl)))

/-! ## The two matrix products, as sums over the contracted axis -/

theorem lhs_cross_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_cross_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_cross_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_cross_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The cross term: rows of the block against columns of the transposed centres, `∑_f l_{p,f} · r_{f,k}`. -/
theorem cross_apply (l : FVec Ideal S512x64 .f32) (r : FVec Ideal S64x512 .f32) (p k : Fin 512) :
    matmul dot_S512x64_S64x512_S512x512_1_0_0_1_n_n (some .fp32) l r (constant (F := Ideal) S512x512 .f32 0x00000000#32) (ix2 p k)
      = ∑ f : Fin 64, l (ix2 p f) * r (ix2 f k) := by
  simp only [matmul]
  rw [Ideal.matmul_constant_zero_apply, ← Equiv.sum_comp (ValueIdx.contrEquiv1 dot_S512x64_S64x512_S512x512_1_0_0_1_n_n 64 rfl rfl).symm]
  refine Finset.sum_congr rfl fun f _ => ?_
  have hk := ValueIdx.contrEquiv1_symm_val dot_S512x64_S64x512_S512x512_1_0_0_1_n_n 64 rfl rfl f
  have el : dot_S512x64_S64x512_S512x512_1_0_0_1_n_n.lhsIdx (ix2 p k) ((ValueIdx.contrEquiv1 dot_S512x64_S64x512_S512x512_1_0_0_1_n_n 64 rfl rfl).symm f) = ix2 p f := funext fun a => Fin.ext (by
    match a with
    | ⟨0, _⟩ => exact lhs_cross_0 _ _
    | ⟨1, _⟩ => exact (lhs_cross_1 _ _).trans hk)
  have er : dot_S512x64_S64x512_S512x512_1_0_0_1_n_n.rhsIdx (ix2 p k) ((ValueIdx.contrEquiv1 dot_S512x64_S64x512_S512x512_1_0_0_1_n_n 64 rfl rfl).symm f) = ix2 f k := funext fun a => Fin.ext (by
    match a with
    | ⟨0, _⟩ => exact (rhs_cross_0 _ _).trans hk
    | ⟨1, _⟩ => exact rhs_cross_1 _ _)
  rw [el, er]

theorem lhs_mix_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_mix_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_mix_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_mix_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The linear map: the weights of a row against the columns of the transposed output weights, `∑ₖ l_{p,k} · r_{k,q}`. -/
theorem mix_apply (l : FVec Ideal S512x512 .bf16) (r : FVec Ideal S512x256 .bf16) (p : Fin 512) (q : Fin 256) :
    matmul dot_S512x512_S512x256_S512x256_1_0_0_1_n_n none l r (constant (F := Ideal) S512x256 .f32 0x00000000#32) (ix2 p q)
      = ∑ k : Fin 512, l (ix2 p k) * r (ix2 k q) := by
  simp only [matmul]
  rw [Ideal.matmul_constant_zero_apply, ← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 p q) ((ValueIdx.contrEquiv1 dot_S512x512_S512x256_S512x256_1_0_0_1_n_n 512 rfl rfl).symm k) = ix2 p k := funext fun a => Fin.ext (by
    match a with
    | ⟨0, _⟩ => exact lhs_mix_0 _ _
    | ⟨1, _⟩ => exact (lhs_mix_1 _ _).trans hk)
  have er : dot_S512x512_S512x256_S512x256_1_0_0_1_n_n.rhsIdx (ix2 p q) ((ValueIdx.contrEquiv1 dot_S512x512_S512x256_S512x256_1_0_0_1_n_n 512 rfl rfl).symm k) = ix2 k q := funext fun a => Fin.ext (by
    match a with
    | ⟨0, _⟩ => exact (rhs_mix_0 _ _).trans hk
    | ⟨1, _⟩ => exact rhs_mix_1 _ _)
  rw [el, er]

/-! ## The body's value -/

/-- Row `p` of the block against centre `k`: the exponent's distance expanded and clamped at zero. -/
def bodyWeight (x0 : FVec Ideal S512x64 .f32) (x1 : FVec Ideal S64x512 .f32) (x5 x7 : FVec Ideal S1x512 .f32) (p k : Fin 512) : EReal :=
  Ideal.exp (0 - x7 (ix2 (0 : Fin 1) k)
    * max ((∑ f : Fin 64, x0 (ix2 p f) * x0 (ix2 p f)) + x5 (ix2 (0 : Fin 1) k)
            - Ideal.ofBits .f32 0x40000000#32 * ∑ f : Fin 64, x0 (ix2 p f) * x1 (ix2 f k)) 0)

/-- The [512, 512] vector of weights the body exponentiates, as the body spells it. -/
def weights (x0 : FVec Ideal S512x64 .f32) (x1 : FVec Ideal S64x512 .f32) (x5 x7 : FVec Ideal S1x512 .f32) : FVec Ideal S512x512 .f32 :=
  exp (subf (broadcast S512x512 (Scalar.ofBits (F := Ideal) .f32 0x00000000#32))
    (mulf (broadcastTo S512x512 (shapeCast S1x512 x7 shapeCasts_S1x512_S1x512) broadcasts_S1x512_S512x512)
      (maximumf
        (subf
          (addf
            (broadcastTo S512x512 (shapeCast S512x1 (multiReduction .add [1] S512 (mulf x0 x0) 0x00000000#32 reduces_S512x64_S512 (.inl rfl) rfl) shapeCasts_S512_S512x1) broadcasts_S512x1_S512x512)
            (broadcastTo S512x512 (shapeCast S1x512 x5 shapeCasts_S1x512_S1x512) broadcasts_S1x512_S512x512))
          (mulf (broadcast S512x512 (Scalar.ofBits (F := Ideal) .f32 0x40000000#32))
            (matmul dot_S512x64_S64x512_S512x512_1_0_0_1_n_n (some .fp32) x0 (shapeCast S64x512 x1 shapeCasts_S64x512_S64x512) (constant (F := Ideal) S512x512 .f32 0x00000000#32))))
        (broadcast S512x512 (Scalar.ofBits (F := Ideal) .f32 0x00000000#32)))))

theorem scalar_ofBits (b : BitVec 32) : Scalar.ofBits (F := Ideal) .f32 b = Ideal.ofBits .f32 b := rfl

/-- The vector of weights read at `(p, k)`. -/
theorem weights_apply (x0 : FVec Ideal S512x64 .f32) (x1 : FVec Ideal S64x512 .f32) (x5 x7 : FVec Ideal S1x512 .f32) (p k : Fin 512) :
    weights x0 x1 x5 x7 (ix2 p k) = bodyWeight x0 x1 x5 x7 p k := by
  unfold weights bodyWeight
  simp only [exp, subf, mulf, maximumf, addf, broadcast, Ideal.exp_def, Ideal.subf_def, Ideal.mulf_def, Ideal.maximumf_def,
    Ideal.addf_def, scalar_ofBits, Ideal.ofBits_zero_f32]
  rw [broadcastTo_1b_ab_apply, broadcastTo_1b_ab_apply, broadcastTo_a1_ab_apply, shapeCast_a_a1_apply, shapeCast_self, shapeCast_self,
    shapeCast_self, laneSum64_apply, cross_apply]
  rfl

/-- The body's stored value is the weighted sum over the centres divided by `ε` plus the sum of the weights. -/
theorem pay_eq (x0 : FVec Ideal S512x64 .f32) (x1 : FVec Ideal S64x512 .f32) (x3 : FVec Ideal S512x256 .bf16) (x5 x7 : FVec Ideal S1x512 .f32) :
    k0_pay1 (F := Ideal) x0 x1 x3 x5 x7
      = divf (matmul dot_S512x512_S512x256_S512x256_1_0_0_1_n_n none (truncf .bf16 (weights x0 x1 x5 x7) bitsLt_bf16_f32) (shapeCast S512x256 x3 shapeCasts_S512x256_S512x256) (constant (F := Ideal) S512x256 .f32 0x00000000#32))
          (broadcastTo S512x256 (addf (broadcast S512x1 (Scalar.ofBits (F := Ideal) .f32 0x3089705F#32)) (shapeCast S512x1 (multiReduction .add [1] S512 (weights x0 x1 x5 x7) 0x00000000#32 reduces_S512x512_S512 (.inl rfl) rfl) shapeCasts_S512_S512x1)) broadcasts_S512x1_S512x256) := rfl

/-- The stored value read at `(p, q)`. -/
theorem pay_apply (x0 : FVec Ideal S512x64 .f32) (x1 : FVec Ideal S64x512 .f32) (x3 : FVec Ideal S512x256 .bf16) (x5 x7 : FVec Ideal S1x512 .f32)
    (p : Fin 512) (q : Fin 256) :
    k0_pay1 (F := Ideal) x0 x1 x3 x5 x7 (ix2 p q)
      = Ideal.div (∑ k : Fin 512, bodyWeight x0 x1 x5 x7 p k * x3 (ix2 k q))
          (Ideal.ofBits .f32 0x3089705F#32 + ∑ k : Fin 512, bodyWeight x0 x1 x5 x7 p k) := by
  rw [pay_eq]
  simp only [divf, Ideal.divf_def]
  rw [mix_apply, broadcastTo_a1_ab_apply]
  simp only [addf, broadcast, Ideal.addf_def, scalar_ofBits]
  rw [shapeCast_a_a1_apply, laneSum512_apply, shapeCast_self]
  simp only [truncf, Ideal.truncf_def, weights_apply]

end Cert.KernelIdeal.Body

end
-- ==== Proof.KernelHost.lean ====
/-
  What the wrapper hands the kernel, read at an index: the centres transposed, the output weights transposed, each
  centre's squared norm (a host sum over the feature axis, from zero) as a row `[1, 512]`, and the squared shape
  `exp (2·Lₖ)` as a row `[1, 512]`.
-/
import proofs.«431249_j60335700574541_3_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.ValueIdx

/-- The centres transposed: entry `(f, k)` is the centres' `(k, f)`. -/
theorem centresT_apply (Cm : FVec Ideal S512x64 .f32) (f : Fin 64) (k : Fin 512) :
    transpose S64x512 [1, 0] Cm transposes_S512x64_S64x512_1_0 (ix2 f k) = Cm (ix2 k f) :=
  transpose_ix2_apply Cm transposes_S512x64_S64x512_1_0 f k

/-- The output weights transposed (the change of format is the identity on the extended reals): entry `(k, q)` is the
    weights' `(q, k)`. -/
theorem weightsT_apply (Wm : FVec Ideal S256x512 .f32) (k : Fin 512) (q : Fin 256) :
    truncf .bf16 (transpose S512x256 [1, 0] Wm transposes_S256x512_S512x256_1_0) bitsLt_bf16_f32 (ix2 k q) = Wm (ix2 q k) :=
  transpose_ix2_apply Wm transposes_S256x512_S512x256_1_0 k q

/-- A `[512]` vector laid as the row `[1, 512]` reads its entry `k` at `(0, k)`. -/
theorem row_apply (v : FVec Ideal S512 .f32) (k : Fin 512) :
    broadcastInDim S1x512 ![1] bcast_S512_S1x512_1 v (ix2 (0 : Fin 1) k) = v (ix1 k) :=
  broadcastInDim_apply _ bcast_S512_S1x512_1 v _ (ix1 k) (fun a => match a with
    | ⟨0, _⟩ => by show k.val = if (512 : Nat) = 1 then 0 else k.val; rw [if_neg (by decide)])

/-- Each centre's squared norm, summed by the host from zero over the feature axis. -/
theorem sqnorm_apply (Cm : FVec Ideal S512x64 .f32) (k : Fin 512) :
    broadcastInDim S1x512 ![1] bcast_S512_S1x512_1
        (Host.reduceAdd (mulf Cm Cm) (constant (F := Ideal) S_ .f32 0x00000000#32) reducesTo_S512x64_S512_d1 h_S_) (ix2 (0 : Fin 1) k)
      = 0 + ∑ f : Fin 64, Cm (ix2 k f) * Cm (ix2 k f) := by
  rw [row_apply]
  simp only [Host.reduceAdd, Ideal.hostReduceAdd_def]
  rw [Ideal.hostReduceAdd_single reducesTo_S512x64_S512_d1 (by decide)]
  refine congr (congrArg _ ?_) (Finset.sum_congr rfl fun f _ => ?_)
  · exact Ideal.ofBits_zero_f32
  · exact congrArg (mulf Cm Cm) (funext fun a => Fin.ext (by match a with | ⟨0, _⟩ => rfl | ⟨1, _⟩ => rfl))

/-- The squared shape of centre `k`: the exponential of twice its log-shape. -/
theorem shape_apply (Lm : FVec Ideal S512 .f32) (k : Fin 512) :
    broadcastInDim S1x512 ![1] bcast_S512_S1x512_1
        (Host.exp (mulf (broadcastInDim S512 ![] bcast_S_S512 (constant (F := Ideal) S_ .f32 0x40000000#32)) Lm)) (ix2 (0 : Fin 1) k)
      = Ideal.exp (Ideal.ofBits .f32 0x40000000#32 * Lm (ix1 k)) := by
  rw [row_apply]
  rfl

end Cert.KernelIdeal.Host

end
-- ==== Proof.KernelValue.lean ====
/-
  The kernel's result array after the run is `kerOut` of the four arguments.

  At grid point `t` the body sees rows `512·t … 512·t + 511` of the input and, whole, the four arrays the wrapper
  prepared (centres transposed, weights transposed, squared norms, squared shapes); what it writes back is rows
  `512·t … 512·t + 511` of `kerOut` (`flushed_eq`). The eight row blocks cover the [4096, 256] result (`cover`).
-/
import proofs.«431249_j60335700574541_3_alg».proof.Proof.Gen.KernelIdeal.Frame
import proofs.«431249_j60335700574541_3_alg».proof.Proof.Gen.KernelIdeal.Value
import proofs.«431249_j60335700574541_3_alg».proof.Proof.KernelBody
import proofs.«431249_j60335700574541_3_alg».proof.Proof.KernelHost
import proofs.«431249_j60335700574541_3_alg».proof.Proof.RbfSpec
import Idealize.ShloMosaic.Lib.Pipeline.Value
import Idealize.ShloMosaic.Lib.StableHlo.Run
import Idealize.ShloMosaic.Lib.Tactic

set_option maxRecDepth 16384

noncomputable section

namespace Cert.KernelIdeal.Whole

open Cert.KernelIdeal Cert.KernelIdeal.Gen Cert.KernelIdeal.Value Cert.KernelIdeal.Body Cert.KernelIdeal.Host
open Idealize.ShloMosaic Idealize.ShloMosaic.TcCoe Idealize.SL.Sem Idealize.ShloMosaic.ValueIdx Cert.Rbf
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One stored entry, over the blocks the body is given -/

/-- The body's value at `(p, q)` is `kerOut` at `(b, q)`, when the input block's row `p` is the input's row `b` and the
    four prepared arrays are what the wrapper computes from the centres, the weights and the log-shapes. -/
theorem point_eq (X : XIdx → EReal) (W : WIdx → EReal) (C : CIdx → EReal) (L : LIdx → EReal)
    (x0 : FVec Ideal S512x64 .f32) (x1 : FVec Ideal S64x512 .f32) (x3 : FVec Ideal S512x256 .bf16) (x5 x7 : FVec Ideal S1x512 .f32)
    (p : Fin 512) (q : Fin 256) (b : Fin 4096)
    (h0 : ∀ f : Fin 64, x0 (ix2 p f) = X (ix2 b f))
    (h1 : ∀ (f : Fin 64) (k : Fin 512), x1 (ix2 f k) = C (ix2 k f))
    (h3 : ∀ k : Fin 512, x3 (ix2 k q) = W (ix2 q k))
    (h5 : ∀ k : Fin 512, x5 (ix2 (0 : Fin 1) k) = 0 + ∑ f : Fin 64, C (ix2 k f) * C (ix2 k f))
    (h7 : ∀ k : Fin 512, x7 (ix2 (0 : Fin 1) k) = Ideal.exp (Ideal.ofBits .f32 0x40000000#32 * L (ix1 k))) :
    k0_pay1 (F := Ideal) x0 x1 x3 x5 x7 (ix2 p q)
      = kerOut (Ideal.ofBits .f32 0x40000000#32) (Ideal.ofBits .f32 0x3089705F#32) X W C L (ix2 b q) := by
  rw [pay_apply]
  have hw : ∀ k, bodyWeight x0 x1 x5 x7 p k = kerWeight (Ideal.ofBits .f32 0x40000000#32) X C L b k := by
    intro k
    unfold bodyWeight kerWeight
    simp only [h0, h1, h5, h7]
  simp only [hw, h3]
  rfl

/-! ## The arrays the region finds -/

theorem V_centresT (c : Dev nD) : (V m c main_v0 : S64x512.Idx → EReal)
    = transpose S64x512 [1, 0] (m ((c : Thread nD τ).loc main_arg2)) transposes_S512x64_S64x512_1_0 := by
  dsimp only [V, hostOps0]; after_results

theorem V_weightsT (c : Dev nD) : (V m c main_v2 : S512x256.Idx → EReal)
    = truncf (F := Ideal) .bf16 (transpose S512x256 [1, 0] (m ((c : Thread nD τ).loc main_arg1) : FVec Ideal S256x512 .f32) transposes_S256x512_S512x256_1_0) bitsLt_bf16_f32 := by
  dsimp only [V, hostOps0]; after_results

theorem V_sqnorm (c : Dev nD) : (V m c main_v5 : S1x512.Idx → EReal)
    = broadcastInDim S1x512 ![1] bcast_S512_S1x512_1
        (Host.reduceAdd (mulf (m ((c : Thread nD τ).loc main_arg2)) (m ((c : Thread nD τ).loc main_arg2))) (constant (F := Ideal) S_ .f32 0x00000000#32) reducesTo_S512x64_S512_d1 h_S_) := by
  dsimp only [V, hostOps0]; after_results

theorem V_shape (c : Dev nD) : (V m c main_v9 : S1x512.Idx → EReal)
    = broadcastInDim S1x512 ![1] bcast_S512_S1x512_1
        (Host.exp (mulf (broadcastInDim S512 ![] bcast_S_S512 (constant (F := Ideal) S_ .f32 0x40000000#32)) (m ((c : Thread nD τ).loc main_arg3)))) := by
  dsimp only [V, hostOps0]; after_results

/-! ## The blocks -/

/-- The printed index maps over the grid: the input and the output move one row block per point, the four prepared
    arrays stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of `kerOut` of the arguments. -/
theorem flushed_eq (c : Dev nD) (t : Fin cfg0.N) :
    (dats m 0 c).flushed 5 t = ((cfg0.win 5).blk t).view.read (Elt Ideal)
      (kerOut (Ideal.ofBits .f32 0x40000000#32) (Ideal.ofBits .f32 0x3089705F#32) (m ((c : Thread nD τ).loc main_arg0))
        (m ((c : Thread nD τ).loc main_arg1)) (m ((c : Thread nD τ).loc main_arg2)) (m ((c : Thread nD τ).loc main_arg3))) := by
  rw [flushed5]
  unfold out0_5
  rw [View.canon_unit_zero hz]
  simp only [View.ld_unit_zero (S := S512x64) hz, View.ld_unit_zero (S := S64x512) hz, View.ld_unit_zero (S := S512x256) hz,
    View.ld_unit_zero (S := S1x512) hz]
  obtain ⟨e00, e01, e10, e11, e20, e21, e30, e31, e40, e41, e50, e51⟩ := idx_facts t
  have hN : cfg0.N = 8 := N_0
  have ht : t.val < 8 := hN ▸ t.isLt
  refine funext fun (j : S512x256.Idx) => ?_
  obtain ⟨p, q, rfl⟩ : ∃ (p : Fin 512) (q : Fin 256), j = ix2 p q := ⟨j 0, j 1, eq_ix2 j⟩
  have hp : p.val < 512 := p.isLt
  have hb : 512 * t.val + p.val < 4096 := by omega
  show k0_pay1 (F := Ideal) (iblk m c 0 t) (iblk m c 1 t) (iblk m c 2 t) (iblk m c 3 t) (iblk m c 4 t) (ix2 p q)
    = kerOut (Ideal.ofBits .f32 0x40000000#32) (Ideal.ofBits .f32 0x3089705F#32) (m ((c : Thread nD τ).loc main_arg0))
        (m ((c : Thread nD τ).loc main_arg1)) (m ((c : Thread nD τ).loc main_arg2)) (m ((c : Thread nD τ).loc main_arg3))
        (((cfg0.win 5).blk t).view.emb (ix2 p q))
  have hemb : ((cfg0.win 5).blk t).view.emb (ix2 p q) = ix2 (⟨512 * t.val + p.val, hb⟩ : Fin 4096) q := funext fun a => Fin.ext (by
    match a with
    | ⟨0, _⟩ => show win0_5.index t (0 : Fin 2) * 512 + 1 * p.val = 512 * t.val + p.val; rw [e50]; omega
    | ⟨1, _⟩ => show win0_5.index t (1 : Fin 2) * 256 + 1 * q.val = q.val; rw [e51]; omega)
  rw [hemb]
  refine point_eq _ _ _ _ (iblk m c 0 t) (iblk m c 1 t) (iblk m c 2 t) (iblk m c 3 t) (iblk m c 4 t) p q _ ?_ ?_ ?_ ?_ ?_
  · intro f
    show V m c main_arg0 (((cfg0.win 0).blk t).view.emb (ix2 p f)) = _
    rw [V_main_arg0]
    refine congrArg _ (funext fun a => Fin.ext ?_)
    match a with
    | ⟨0, _⟩ => show win0_0.index t (0 : Fin 2) * 512 + 1 * p.val = 512 * t.val + p.val; rw [e00]; omega
    | ⟨1, _⟩ => show win0_0.index t (1 : Fin 2) * 64 + 1 * f.val = f.val; rw [e01]; omega
  · intro f k
    show V m c main_v0 (((cfg0.win 1).blk t).view.emb (ix2 f k)) = _
    have he : ((cfg0.win 1).blk t).view.emb (ix2 f k) = ix2 f k := funext fun a => Fin.ext (by
      match a with
      | ⟨0, _⟩ => show win0_1.index t (0 : Fin 2) * 64 + 1 * f.val = f.val; rw [e10]; omega
      | ⟨1, _⟩ => show win0_1.index t (1 : Fin 2) * 512 + 1 * k.val = k.val; rw [e11]; omega)
    rw [he, V_centresT]
    exact centresT_apply _ f k
  · intro k
    show V m c main_v2 (((cfg0.win 2).blk t).view.emb (ix2 k q)) = _
    have he : ((cfg0.win 2).blk t).view.emb (ix2 k q) = ix2 k q := funext fun a => Fin.ext (by
      match a with
      | ⟨0, _⟩ => show win0_2.index t (0 : Fin 2) * 512 + 1 * k.val = k.val; rw [e20]; omega
      | ⟨1, _⟩ => show win0_2.index t (1 : Fin 2) * 256 + 1 * q.val = q.val; rw [e21]; omega)
    rw [he, V_weightsT]
    exact weightsT_apply _ k q
  · intro k
    show V m c main_v5 (((cfg0.win 3).blk t).view.emb (ix2 (0 : Fin 1) k)) = _
    have he : ((cfg0.win 3).blk t).view.emb (ix2 (0 : Fin 1) k) = ix2 (0 : Fin 1) k := funext fun a => Fin.ext (by
      match a with
      | ⟨0, _⟩ => show win0_3.index t (0 : Fin 2) * 1 + 1 * 0 = 0; rw [e30]
      | ⟨1, _⟩ => show win0_3.index t (1 : Fin 2) * 512 + 1 * k.val = k.val; rw [e31]; omega)
    rw [he, V_sqnorm]
    exact sqnorm_apply _ k
  · intro k
    show V m c main_v9 (((cfg0.win 4).blk t).view.emb (ix2 (0 : Fin 1) k)) = _
    have he : ((cfg0.win 4).blk t).view.emb (ix2 (0 : Fin 1) k) = ix2 (0 : Fin 1) k := funext fun a => Fin.ext (by
      match a with
      | ⟨0, _⟩ => show win0_4.index t (0 : Fin 2) * 1 + 1 * 0 = 0; rw [e40]
      | ⟨1, _⟩ => show win0_4.index t (1 : Fin 2) * 512 + 1 * k.val = k.val; rw [e41]; omega)
    rw [he, V_shape]
    exact shape_apply _ k

/-- Every index of the result is in the block of the point its row falls in. -/
theorem cover (i : S4096x256.Idx) : ∃ t : Fin cfg0.N, (cfg0.win 5).flush t = true ∧ i ∈ ((cfg0.win 5).blk t).view.set := by
  have hi0 : (i 0).val < 4096 := (i 0).isLt
  have hi1 : (i 1).val < 256 := (i 1).isLt
  have hN : cfg0.N = 8 := N_0
  obtain ⟨t, htv⟩ : ∃ t : Fin cfg0.N, t.val = (i 0).val / 512 := ⟨⟨(i 0).val / 512, by omega⟩, rfl⟩
  obtain ⟨e00, e01, e10, e11, e20, e21, e30, e31, e40, e41, e50, e51⟩ := idx_facts t
  refine ⟨t, flush0_5 t, ?_⟩
  show i ∈ ((View.whole main_v10).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; rw [e50]; omega
  | ⟨1, _⟩ => show win0_5.index t (1 : Fin 2) * 256 ≤ (i 1).val ∧ (i 1).val < win0_5.index t (1 : Fin 2) * 256 + 256; rw [e51]; omega

/-- THE RESULT ARRAY after the run is `kerOut` of the arguments. -/
theorem final (c : Dev nD) : (dats m 0 c).arrAt 5 cfg0.N
    = kerOut (Ideal.ofBits .f32 0x40000000#32) (Ideal.ofBits .f32 0x3089705F#32) (m ((c : Thread nD τ).loc main_arg0))
        (m ((c : Thread nD τ).loc main_arg1)) (m ((c : Thread nD τ).loc main_arg2)) (m ((c : Thread nD τ).loc main_arg3)) :=
  (dats m 0 c).arrAt_eq_of_cover 5 _ (fun t _ => flushed_eq m c t) cover

/-- The run, read: the result array at `kerOut` of the arguments, the arguments unchanged. -/
theorem run : θ_run defs (onTc (τ := τ) (main (F := Ideal))) ⟨m, fun _ => 0, ρ⟩ fun r => ∀ c : Dev nD,
      r.2.mem ((c : Thread nD τ).loc main_v10)
        = kerOut (Ideal.ofBits .f32 0x40000000#32) (Ideal.ofBits .f32 0x3089705F#32) (m ((c : Thread nD τ).loc main_arg0))
            (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefValue.lean ====
/-
  The reference's result, stage by stage at an index, is `refOut` of its four arguments: the broadcasts put row `b` of the
  input beside centre `k`, the sum over the feature axis is the squared distance, and the last contraction runs over the
  centres.
-/
import proofs.«431249_j60335700574541_3_alg».proof.Proof.Gen.ReferenceIdeal.Read
import proofs.«431249_j60335700574541_3_alg».proof.Proof.RbfSpec

noncomputable section

namespace Cert.ReferenceIdeal.RefValue

open Cert.ReferenceIdeal Cert.ReferenceIdeal.Read Idealize.ShloMosaic Idealize.ShloMosaic.ValueIdx Cert.Rbf

/-- The reference's unnormalised weight at `(b, k)`. -/
theorem weight_apply (X : (⟨S4096x64, .f32⟩ : BufTy).Contents (Elt Ideal)) (C : (⟨S512x64, .f32⟩ : BufTy).Contents (Elt Ideal))
    (L : (⟨S512, .f32⟩ : BufTy).Contents (Elt Ideal)) (b : Fin 4096) (k : Fin 512) :
    val_main_v14 (F := Ideal) X C L (ix2 b k) = refWeight X C L b k := by
  have e9 : idx_main_v9 (idx_main_v10 (ix2 b k)) = ix1 k := funext fun a => Fin.ext (by match a with | ⟨0, _⟩ => rfl)
  have e0 : ∀ f : Fin 64, idx_main_v0 (idx_main_v2 (idx_main_v6 (ix2 b k) f)) = ix2 b f := fun f =>
    funext fun a => Fin.ext (by match a with | ⟨0, _⟩ => rfl | ⟨1, _⟩ => rfl)
  have e1 : ∀ f : Fin 64, idx_main_v1 (idx_main_v3 (idx_main_v6 (ix2 b k) f)) = ix2 k f := fun f =>
    funext fun a => Fin.ext (by match a with | ⟨0, _⟩ => rfl | ⟨1, _⟩ => rfl)
  rw [val_main_v14_apply, val_main_v13_apply, val_main_v12_apply, val_main_v11_apply, val_main_v10_apply, val_main_v9_apply,
    val_main_v8_apply, val_main_v7_apply, val_main_v6_apply, val_main_cst_apply]
  simp only [val_main_v5_apply, val_main_v4_apply, val_main_v2_apply, val_main_v0_apply, val_main_v3_apply, val_main_v1_apply,
    e9, e0, e1, Ideal.hostUnary_exp_def, Ideal.hostUnary_sqrt_def, Ideal.hostNegf_def, Ideal.negf_def, Ideal.mulf_def,
    Ideal.subf_def, Ideal.ofBits_def, Ideal.ofBits_zero_f32]
  rfl

/-- The reference's result is `refOut` of the arguments. -/
theorem result_eq (X : (⟨S4096x64, .f32⟩ : BufTy).Contents (Elt Ideal)) (W : (⟨S256x512, .f32⟩ : BufTy).Contents (Elt Ideal))
    (C : (⟨S512x64, .f32⟩ : BufTy).Contents (Elt Ideal)) (L : (⟨S512, .f32⟩ : BufTy).Contents (Elt Ideal)) :
    val_main_v21 (F := Ideal) X W C L = refOut (Ideal.ofBits .f32 0x3089705F#32) X W C L := by
  funext j
  obtain ⟨b, o, rfl⟩ : ∃ (b : Fin 4096) (o : Fin 256), j = ix2 b o := ⟨j 0, j 1, eq_ix2 j⟩
  rw [val_main_v21_apply]
  show _ = ∑ k : Fin 512, Ideal.div (refWeight X C L b k) (Ideal.ofBits .f32 0x3089705F#32 + (0 + ∑ k' : Fin 512, refWeight X C L b k')) * W (ix2 o k)
  refine Finset.sum_congr rfl fun k _ => ?_
  have el : lidx_main_v21 (ix2 b o) k = ix2 b k := funext fun a => Fin.ext (by match a with | ⟨0, _⟩ => rfl | ⟨1, _⟩ => rfl)
  have er : ridx_main_v21 (ix2 b o) k = ix2 o k := funext fun a => Fin.ext (by match a with | ⟨0, _⟩ => rfl | ⟨1, _⟩ => rfl)
  have e16 : ∀ k' : Fin 512, idx_main_v15 (idx_main_v16 (idx_main_v19 (ix2 b k))) k' = ix2 b k' := fun k' =>
    funext fun a => Fin.ext (by match a with | ⟨0, _⟩ => rfl | ⟨1, _⟩ => rfl)
  rw [el, er, val_main_v20_apply, val_main_v19_apply, val_main_v18_apply, val_main_v17_apply, val_main_v16_apply,
    val_main_v15_apply, val_main_cst_1_apply, val_main_cst_0_apply]
  simp only [e16, weight_apply, Ideal.hostDivf_def, Ideal.addf_def, Ideal.ofBits_def, Ideal.ofBits_zero_f32]

end Cert.ReferenceIdeal.RefValue

end
-- ==== Proof.lean ====
/-
  The certificate: a radial-basis layer computed two ways.

  For an input row `x_b`, centres `c_k`, log-shapes `l_k` and output weights `w_{o,k}`, the result's entry `(b, o)` is
  `∑ₖ g_{b,k} · w_{o,k} / (ε + ∑ₖ g_{b,k})` with the Gaussian weight `g_{b,k} = exp (-(exp (2·l_k) · |x_b - c_k|²))`.
  The kernel expands the squared distance as `|x|² + |c|² - 2·⟨x, c⟩` (one matrix product against the transposed
  centres), clamps it at zero, squares the shape by doubling its exponent, and normalises once after the final
  matrix product; the reference takes the root of the squared distance, scales and squares it, and normalises each
  weight before the contraction. On real entries — which the precondition gives — the expanded distance IS the
  squared distance and is nonnegative, the root squared is the distance, and the normaliser is a positive real, so
  the two results agree entry by entry (RbfAlgebra.lean, RbfSpec.lean). KernelValue.lean reads the kernel's run as
  `kerOut` of the arguments; RefValue.lean reads the reference's run as `refOut` of the arguments.
-/
import proofs.«431249_j60335700574541_3_alg».proof.Defs
import proofs.«431249_j60335700574541_3_alg».proof.Proof.Gen.Kernel
import proofs.«431249_j60335700574541_3_alg».proof.Proof.Gen.Kernel.Skeleton
import proofs.«431249_j60335700574541_3_alg».proof.Proof.Gen.Kernel.Launch
import proofs.«431249_j60335700574541_3_alg».proof.Proof.Gen.Kernel.Points
import proofs.«431249_j60335700574541_3_alg».proof.Proof.Gen.Kernel.Frame
import proofs.«431249_j60335700574541_3_alg».proof.Proof.Gen.KernelIdeal
import proofs.«431249_j60335700574541_3_alg».proof.Proof.Gen.KernelIdeal.Skeleton
import proofs.«431249_j60335700574541_3_alg».proof.Proof.Gen.KernelIdeal.Launch
import proofs.«431249_j60335700574541_3_alg».proof.Proof.Gen.KernelIdeal.Points
import proofs.«431249_j60335700574541_3_alg».proof.Proof.Gen.KernelIdeal.Frame
import proofs.«431249_j60335700574541_3_alg».proof.Proof.Gen.ReferenceIdeal
import proofs.«431249_j60335700574541_3_alg».proof.Proof.Gen.Pre_finite_inputs
import proofs.«431249_j60335700574541_3_alg».proof.Proof.Gen.KernelIdeal.Value
import proofs.«431249_j60335700574541_3_alg».proof.Proof.Gen.ReferenceIdeal.Run
import proofs.«431249_j60335700574541_3_alg».proof.Proof.Gen.ReferenceIdeal.Read
import proofs.«431249_j60335700574541_3_alg».proof.Proof.RbfSpec
import proofs.«431249_j60335700574541_3_alg».proof.Proof.FiniteEntries
import proofs.«431249_j60335700574541_3_alg».proof.Proof.KernelValue
import proofs.«431249_j60335700574541_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- Both runs end; the kernel's result is `kerOut` of its arguments, the reference's is `refOut` of the same arrays,
    and on the real entries the precondition gives the two functions are one. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hC, hL⟩ := Cert.Pre_finite_inputs.Finite.real_of_pre _ _ _ _ (hpre c)
  rw [Cert.ReferenceIdeal.Read.val_main_v21_eq, Cert.ReferenceIdeal.RefValue.result_eq, (hagree c).1, (hagree c).2.1,
    (hagree c).2.2.1, (hagree c).2.2.2]
  exact (Cert.Rbf.kerOut_eq_refOut _ _ _ _ hX hW hC hL).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
